-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100x100 : Shape := ⟨2, ![100, 100]⟩
abbrev S100 : Shape := ⟨1, ![100]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part3 {F : FTy → Type} [FloatOps F] (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  main_v53

def fn_part2 {F : FTy → Type} [FloatOps F] (main_arg8 : FVec F S100 .f32) (main_arg9 : FVec F S100x100 .f32) (main_arg10 : FVec F S100x100 .f32) (main_arg11 : FVec F S100 .f32) (main_v33 : IVec S_ 1) : IVec S_ 1 :=
  let main_v34 : FVec F S100 .f32 := Host.absf main_arg8
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg9
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100x100 .f32 := Host.absf main_arg10
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100 .f32 := Host.absf main_arg11
  let main_cst_18 : FVec F S_ .f32 := constant S_ .f32 0x7F800000#32
  let main_v50 : FVec F S100 .f32 := broadcastInDim S100 ![] bcast_S_S100 main_cst_18
  fn_part3 (F := F) main_v48 main_v49 main_v50

def fn_part1 {F : FTy → Type} [FloatOps F] (main_arg5 : FVec F S100 .f32) (main_arg6 : FVec F S100x100 .f32) (main_arg7 : FVec F S100x100 .f32) (main_arg8 : FVec F S100 .f32) (main_arg9 : FVec F S100x100 .f32) (main_arg10 : FVec F S100x100 .f32) (main_arg11 : FVec F S100 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg6
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100x100 .f32 := Host.absf main_arg7
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x100 .f32) (main_arg1 : IVec S2x1600000 32) (main_arg2 : FVec F S1600000 .f32) (main_arg3 : FVec F S100x100 .f32) (main_arg4 : FVec F S100x100 .f32) (main_arg5 : FVec F S100 .f32) (main_arg6 : FVec F S100x100 .f32) (main_arg7 : FVec F S100x100 .f32) (main_arg8 : FVec F S100 .f32) (main_arg9 : FVec F S100x100 .f32) (main_arg10 : FVec F S100x100 .f32) (main_arg11 : FVec F S100 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x100 .f32 := Host.absf main_arg3
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  let main_v14 : FVec F S100x100 .f32 := Host.absf main_arg4
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg5 main_arg6 main_arg7 main_arg8 main_arg9 main_arg10 main_arg11 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100x100 : Shape := ⟨2, ![100, 100]⟩
abbrev S100 : Shape := ⟨1, ![100]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x100 : Shape := ⟨2, ![1600000, 100]⟩
abbrev S100000x1 : Shape := ⟨2, ![100000, 1]⟩
abbrev S1x100 : Shape := ⟨2, ![1, 100]⟩
abbrev S5000x100 : Shape := ⟨2, ![5000, 100]⟩

abbrev nBuf : Space → Nat
  | .hbm => 72
  | .vmem => 23
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x100, .f32⟩
  | .hbm, ⟨31, _⟩ => ⟨S_, .f32⟩
  | .hbm, ⟨32, _⟩ => ⟨S100000x100, .f32⟩
  | .hbm, ⟨33, _⟩ => ⟨S1600000x1, .i32⟩
  | .hbm, ⟨34, _⟩ => ⟨S100000x100, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x100, .f32⟩
  | .hbm, ⟨40, _⟩ => ⟨S100000x100, .f32⟩
  | .hbm, ⟨41, _⟩ => ⟨S1x100, .f32⟩
  | .hbm, ⟨42, _⟩ => ⟨S100000x100, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x100, .f32⟩
  | .hbm, ⟨58, _⟩ => ⟨S_, .f32⟩
  | .hbm, ⟨59, _⟩ => ⟨S100000x100, .f32⟩
  | .hbm, ⟨60, _⟩ => ⟨S1600000x1, .i32⟩
  | .hbm, ⟨61, _⟩ => ⟨S100000x100, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x100, .f32⟩
  | .hbm, ⟨67, _⟩ => ⟨S100000x100, .f32⟩
  | .hbm, ⟨68, _⟩ => ⟨S1x100, .f32⟩
  | .hbm, ⟨69, _⟩ => ⟨S1x100, .f32⟩
  | .hbm, ⟨70, _⟩ => ⟨S100000x100, .f32⟩
  | .hbm, ⟨71, _⟩ => ⟨S100000x100, .f32⟩
  | .local _ .vmem, ⟨0, _⟩ => ⟨S5000x100, .f32⟩
  | .local _ .vmem, ⟨1, _⟩ => ⟨S5000x100, .f32⟩
  | .local _ .vmem, ⟨2, _⟩ => ⟨S5000x100, .f32⟩
  | .local _ .vmem, ⟨3, _⟩ => ⟨S5000x100, .f32⟩
  | .local _ .vmem, ⟨4, _⟩ => ⟨S100x100, .f32⟩
  | .local _ .vmem, ⟨5, _⟩ => ⟨S100x100, .f32⟩
  | .local _ .vmem, ⟨6, _⟩ => ⟨S1x100, .f32⟩
  | .local _ .vmem, ⟨7, _⟩ => ⟨S5000x100, .f32⟩
  | .local _ .vmem, ⟨8, _⟩ => ⟨S5000x100, .f32⟩
  | .local _ .vmem, ⟨9, _⟩ => ⟨S5000x100, .f32⟩
  | .local _ .vmem, ⟨10, _⟩ => ⟨S5000x100, .f32⟩
  | .local _ .vmem, ⟨11, _⟩ => ⟨S5000x100, .f32⟩
  | .local _ .vmem, ⟨12, _⟩ => ⟨S5000x100, .f32⟩
  | .local _ .vmem, ⟨13, _⟩ => ⟨S100x100, .f32⟩
  | .local _ .vmem, ⟨14, _⟩ => ⟨S100x100, .f32⟩
  | .local _ .vmem, ⟨15, _⟩ => ⟨S1x100, .f32⟩
  | .local _ .vmem, ⟨16, _⟩ => ⟨S100x100, .f32⟩
  | .local _ .vmem, ⟨17, _⟩ => ⟨S100x100, .f32⟩
  | .local _ .vmem, ⟨18, _⟩ => ⟨S1x100, .f32⟩
  | .local _ .vmem, ⟨19, _⟩ => ⟨S5000x100, .f32⟩
  | .local _ .vmem, ⟨20, _⟩ => ⟨S5000x100, .f32⟩
  | .local _ .vmem, ⟨21, _⟩ => ⟨S5000x100, .f32⟩
  | .local _ .vmem, ⟨22, _⟩ => ⟨S5000x100, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x100 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x100 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  shapeCasts_S100_S1x100 : S100.ShapeCasts S1x100
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  scatter_S100000_S1600000x1_S1600000_n_0_0_1_wf : ScatterDims.WF S100000 S1600000x1 S1600000 [] [0] [0] 1
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S5000x100_S100x100_S5000x100_1_0_0_1_n_n_wf : DotDims.WF S5000x100 S100x100 S5000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x100.size a ≤ S100000x100.size a
  hwx0_1 : ∀ i : grid0.Coords, EltTy.bits .f32 = 32 ∨ (Rect.block (s := S100000x100) S5000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x100.size a ≤ S100x100.size a
  hwx0_2 : ∀ i : grid0.Coords, EltTy.bits .f32 = 32 ∨ (Rect.block (s := S100x100) S100x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x100.size a ≤ S100000x100.size a
  hwx0_5 : ∀ i : grid0.Coords, EltTy.bits .f32 = 32 ∨ (Rect.block (s := S100000x100) S5000x100.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S100000x100.size a
  hwx1_0 : ∀ i : grid1.Coords, EltTy.bits .f32 = 32 ∨ (Rect.block (s := S100000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S100000x100.size a
  hwx1_1 : ∀ i : grid1.Coords, EltTy.bits .f32 = 32 ∨ (Rect.block (s := S100000x100) S5000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x100.size a ≤ S100x100.size a
  hwx1_2 : ∀ i : grid1.Coords, EltTy.bits .f32 = 32 ∨ (Rect.block (s := S100x100) S100x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x100.size a ≤ S100x100.size a
  hwx1_3 : ∀ i : grid1.Coords, EltTy.bits .f32 = 32 ∨ (Rect.block (s := S100x100) S100x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x100.size a ≤ S100x100.size a
  hwx1_5 : ∀ i : grid1.Coords, EltTy.bits .f32 = 32 ∨ (Rect.block (s := S100x100) S100x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100x100.size a ≤ S100x100.size a
  hwx1_6 : ∀ i : grid1.Coords, EltTy.bits .f32 = 32 ∨ (Rect.block (s := S100x100) S100x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x100.size a ≤ S1x100.size a
  hwx1_7 : ∀ i : grid1.Coords, EltTy.bits .f32 = 32 ∨ (Rect.block (s := S1x100) S1x100.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x100.size a ≤ S100000x100.size a
  hwx1_8 : ∀ i : grid1.Coords, EltTy.bits .f32 = 32 ∨ (Rect.block (s := S100000x100) S5000x100.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x100.size a ≤ S100000x100.size a
  hwx1_9 : ∀ i : grid1.Coords, EltTy.bits .f32 = 32 ∨ (Rect.block (s := S100000x100) S5000x100.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf

abbrev win0_0 : Pipeline.Window sig grid0 :=
  Pipeline.Window.ofSpec (Memref.whole main_v22) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S100x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S100x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S100x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S100x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S100x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46_0) S5000x100.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v46_1) S5000x100.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100x100 : Shape := ⟨2, ![100, 100]⟩
abbrev S100 : Shape := ⟨1, ![100]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x100 : Shape := ⟨2, ![1600000, 100]⟩
abbrev S100000x1 : Shape := ⟨2, ![100000, 1]⟩
abbrev S1x100 : Shape := ⟨2, ![1, 100]⟩

abbrev nBuf : Space → Nat
  | .hbm => 112
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x100, .f32⟩
  | .hbm, ⟨31, _⟩ => ⟨S_, .f32⟩
  | .hbm, ⟨32, _⟩ => ⟨S100000x100, .f32⟩
  | .hbm, ⟨33, _⟩ => ⟨S1600000x1, .i32⟩
  | .hbm, ⟨34, _⟩ => ⟨S100000x100, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x100, .f32⟩
  | .hbm, ⟨40, _⟩ => ⟨S100000x100, .f32⟩
  | .hbm, ⟨41, _⟩ => ⟨S100000x100, .f32⟩
  | .hbm, ⟨42, _⟩ => ⟨S100000x100, .f32⟩
  | .hbm, ⟨43, _⟩ => ⟨S100000x100, .f32⟩
  | .hbm, ⟨44, _⟩ => ⟨S1x100, .f32⟩
  | .hbm, ⟨45, _⟩ => ⟨S100000x100, .f32⟩
  | .hbm, ⟨46, _⟩ => ⟨S100000x100, .f32⟩
  | .hbm, ⟨47, _⟩ => ⟨S_, .f32⟩
  | .hbm, ⟨48, _⟩ => ⟨S100000x100, .f32⟩
  | .hbm, ⟨49, _⟩ => ⟨S100000x100, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x100, .f32⟩
  | .hbm, ⟨65, _⟩ => ⟨S_, .f32⟩
  | .hbm, ⟨66, _⟩ => ⟨S100000x100, .f32⟩
  | .hbm, ⟨67, _⟩ => ⟨S1600000x1, .i32⟩
  | .hbm, ⟨68, _⟩ => ⟨S100000x100, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x100, .f32⟩
  | .hbm, ⟨74, _⟩ => ⟨S100000x100, .f32⟩
  | .hbm, ⟨75, _⟩ => ⟨S100000x100, .f32⟩
  | .hbm, ⟨76, _⟩ => ⟨S100000x100, .f32⟩
  | .hbm, ⟨77, _⟩ => ⟨S100000x100, .f32⟩
  | .hbm, ⟨78, _⟩ => ⟨S1x100, .f32⟩
  | .hbm, ⟨79, _⟩ => ⟨S100000x100, .f32⟩
  | .hbm, ⟨80, _⟩ => ⟨S100000x100, .f32⟩
  | .hbm, ⟨81, _⟩ => ⟨S_, .f32⟩
  | .hbm, ⟨82, _⟩ => ⟨S1600000, .f32⟩
  | .hbm, ⟨83, _⟩ => ⟨S_, .f32⟩
  | .hbm, ⟨84, _⟩ => ⟨S100000, .f32⟩
  | .hbm, ⟨85, _⟩ => ⟨S1600000x1, .i32⟩
  | .hbm, ⟨86, _⟩ => ⟨S100000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x100, .f32⟩
  | .hbm, ⟨96, _⟩ => ⟨S_, .f32⟩
  | .hbm, ⟨97, _⟩ => ⟨S100000x100, .f32⟩
  | .hbm, ⟨98, _⟩ => ⟨S1600000x1, .i32⟩
  | .hbm, ⟨99, _⟩ => ⟨S100000x100, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x100, .f32⟩
  | .hbm, ⟨105, _⟩ => ⟨S100000x100, .f32⟩
  | .hbm, ⟨106, _⟩ => ⟨S100000x100, .f32⟩
  | .hbm, ⟨107, _⟩ => ⟨S100000x100, .f32⟩
  | .hbm, ⟨108, _⟩ => ⟨S100000x100, .f32⟩
  | .hbm, ⟨109, _⟩ => ⟨S1x100, .f32⟩
  | .hbm, ⟨110, _⟩ => ⟨S100000x100, .f32⟩
  | .hbm, ⟨111, _⟩ => ⟨S100000x100, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  scatter_S100000_S1600000x1_S1600000_n_0_0_1_wf : ScatterDims.WF S100000 S1600000x1 S1600000 [] [0] [0] 1
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x100_S100000x100_1_0_0_1_n_n_wf : DotDims.WF S100000x100 S100x100 S100000x100 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf

class Facts : Prop extends Facts₀ where

variable [Facts]
-- ==== Proof.Spec.lean ====
/-
  The mathematics both programs compute, index by index over the extended reals.

  A graph layer here is  out[r, q] = (Σ_k A[r, k] · Wa[k, q]) + (Σ_k X[r, k] · Wr[k, q]) + b[q] :
  `A` the neighbour means of the rows of `X`, `Wa` and `Wr` the two weight matrices, `b` the bias. The first layer
  is followed by `max(·, 0)`; the two heads are the plain layer at their own weights. The number of rows `n` is a
  parameter: the same formula describes a block of 5000 rows and the whole array of 100000 rows, and a row of the
  result depends only on the same row of `A` and of `X`, which is what lets a row block be computed by itself.
-/
import Idealize.ShloMosaic.PureOps.Ideal
import Idealize.ShloMosaic.Lib.ValueIdx

noncomputable section

namespace Cert.Spec

open Idealize.ShloMosaic Idealize.ShloMosaic.ValueIdx

/-- Row `r`, column `q` of one layer: the two matrix products added, then the bias of column `q`. -/
def layerAt {n : Nat} (A X : (⟨2, ![n, 100]⟩ : Shape).Idx → EReal) (Wa Wr : (⟨2, ![100, 100]⟩ : Shape).Idx → EReal)
    (b : (⟨1, ![100]⟩ : Shape).Idx → EReal) (r : Fin n) (q : Fin 100) : EReal :=
  (∑ k : Fin 100, A (ix2 r k) * Wa (ix2 k q)) + (∑ k : Fin 100, X (ix2 r k) * Wr (ix2 k q)) + b (ix1 q)

/-- One layer as an array of `n` rows. -/
def layer (n : Nat) (A X : (⟨2, ![n, 100]⟩ : Shape).Idx → EReal) (Wa Wr : (⟨2, ![100, 100]⟩ : Shape).Idx → EReal)
    (b : (⟨1, ![100]⟩ : Shape).Idx → EReal) : (⟨2, ![n, 100]⟩ : Shape).Idx → EReal :=
  fun i => layerAt A X Wa Wr b (i 0) (i 1)

/-- The first layer: the layer followed by the maximum with zero (the zero kept as its f32 word). -/
def reluLayer (n : Nat) (A X : (⟨2, ![n, 100]⟩ : Shape).Idx → EReal) (Wa Wr : (⟨2, ![100, 100]⟩ : Shape).Idx → EReal)
    (b : (⟨1, ![100]⟩ : Shape).Idx → EReal) : (⟨2, ![n, 100]⟩ : Shape).Idx → EReal :=
  fun i => max (layerAt A X Wa Wr b (i 0) (i 1)) (Ideal.ofBits .f32 0x00000000#32)

theorem layer_apply {n : Nat} (A X : (⟨2, ![n, 100]⟩ : Shape).Idx → EReal) (Wa Wr : (⟨2, ![100, 100]⟩ : Shape).Idx → EReal)
    (b : (⟨1, ![100]⟩ : Shape).Idx → EReal) (r : Fin n) (q : Fin 100) :
    layer n A X Wa Wr b (ix2 r q) = layerAt A X Wa Wr b r q := rfl

theorem reluLayer_apply {n : Nat} (A X : (⟨2, ![n, 100]⟩ : Shape).Idx → EReal) (Wa Wr : (⟨2, ![100, 100]⟩ : Shape).Idx → EReal)
    (b : (⟨1, ![100]⟩ : Shape).Idx → EReal) (r : Fin n) (q : Fin 100) :
    reluLayer n A X Wa Wr b (ix2 r q) = max (layerAt A X Wa Wr b r q) (Ideal.ofBits .f32 0x00000000#32) := rfl

/-- A layer's value at row `r` only reads row `r` of `A` and of `X`: two pairs of arrays that agree on that row
    (possibly of different heights, at rows `r` and `r'`) give the same value. -/
theorem layerAt_congr {n n' : Nat} (A X : (⟨2, ![n, 100]⟩ : Shape).Idx → EReal) (A' X' : (⟨2, ![n', 100]⟩ : Shape).Idx → EReal)
    (Wa Wr : (⟨2, ![100, 100]⟩ : Shape).Idx → EReal) (b : (⟨1, ![100]⟩ : Shape).Idx → EReal) (r : Fin n) (r' : Fin n') (q : Fin 100)
    (hA : ∀ k : Fin 100, A (ix2 r k) = A' (ix2 r' k)) (hX : ∀ k : Fin 100, X (ix2 r k) = X' (ix2 r' k)) :
    layerAt A X Wa Wr b r q = layerAt A' X' Wa Wr b r' q := by
  unfold layerAt
  simp only [hA, hX]

/-- The same when the weights and the bias are also only known to agree where row `r`, column `q` reads them. -/
theorem layerAt_congr_all {n n' : Nat} (A X : (⟨2, ![n, 100]⟩ : Shape).Idx → EReal) (A' X' : (⟨2, ![n', 100]⟩ : Shape).Idx → EReal)
    (Wa Wr Wa' Wr' : (⟨2, ![100, 100]⟩ : Shape).Idx → EReal) (b b' : (⟨1, ![100]⟩ : Shape).Idx → EReal) (r : Fin n) (r' : Fin n') (q : Fin 100)
    (hA : ∀ k : Fin 100, A (ix2 r k) = A' (ix2 r' k)) (hX : ∀ k : Fin 100, X (ix2 r k) = X' (ix2 r' k))
    (hWa : ∀ k : Fin 100, Wa (ix2 k q) = Wa' (ix2 k q)) (hWr : ∀ k : Fin 100, Wr (ix2 k q) = Wr' (ix2 k q))
    (hb : b (ix1 q) = b' (ix1 q)) :
    layerAt A X Wa Wr b r q = layerAt A' X' Wa' Wr' b' r' q := by
  unfold layerAt
  simp only [hA, hX, hWa, hWr, hb]

/-- One output head of the whole network, from the node features `x`, the edge list `e` and the weights: the first
    layer's features `feat = max(layer(agg x, x), 0)`, then the plain layer of `agg feat` and `feat` at the head's own weights.
    `agg` is the neighbour-mean aggregation (a gather along the edges, a scatter-add and a division by the degree),
    carried as one function of the features and the edge list: both programs apply the same one. -/
def head {EI : Type} (agg : ((⟨2, ![100000, 100]⟩ : Shape).Idx → EReal) → EI → ((⟨2, ![100000, 100]⟩ : Shape).Idx → EReal))
    (x : (⟨2, ![100000, 100]⟩ : Shape).Idx → EReal) (e : EI)
    (Wsa Wsr : (⟨2, ![100, 100]⟩ : Shape).Idx → EReal) (bs : (⟨1, ![100]⟩ : Shape).Idx → EReal)
    (Wha Whr : (⟨2, ![100, 100]⟩ : Shape).Idx → EReal) (bh : (⟨1, ![100]⟩ : Shape).Idx → EReal) :
    (⟨2, ![100000, 100]⟩ : Shape).Idx → EReal :=
  layer 100000 (agg (reluLayer 100000 (agg x e) x Wsa Wsr bs) e) (reluLayer 100000 (agg x e) x Wsa Wsr bs) Wha Whr bh

end Cert.Spec

end
-- ==== Proof.KernelPay.lean ====
/-
  The kernel's arithmetic at one index, over the extended reals.

  Each kernel body forms, for a block of 5000 rows, two matrix products into zero accumulators, adds them, adds a bias
  row repeated down the rows, and (first kernel only) takes the maximum with zero. The operands pass through a
  narrowing cast that is the identity on extended reals, and through a reshape to the same shape, which is also the
  identity. So at row `p`, column `q` the value is
      (Σ_k A[p, k] · Wa[k, q]) + (Σ_k X[p, k] · Wr[k, q]) + b[0, q],
  which is the layer formula of the specification with the bias row read as a function of the column.
-/
import proofs.«165253_j88064009437412_1_alg».proof.Proof.Gen.KernelIdeal.Skeleton
import proofs.«165253_j88064009437412_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option synthInstance.maxSize 4096

noncomputable section

namespace Cert.KernelIdeal.Pay

open Cert.KernelIdeal Cert.KernelIdeal.Gen Cert.Spec Idealize.ShloMosaic Idealize.ShloMosaic.ValueIdx

/-- the [1,100] bias block read as a function of the column -/
abbrev biasRow (b2 : Vec Ideal S1x100 .f32) : (⟨1, ![100]⟩ : Shape).Idx → EReal := fun j => b2 (ix2 (0 : Fin 1) (j 0))

/-! ## One matrix product at an index

  The product's dimension numbers contract axis 1 of the left operand with axis 0 of the right one; the output's
  axis 0 is the left operand's free axis and its axis 1 the right operand's. The four lemmas below say, axis by axis,
  which coordinate of the output index or of the contraction index each operand is read at. -/

/-- The left operand's row is the output's row. -/
theorem mm_lhs_0 (i : S5000x100.Idx) (c : dot_S5000x100_S100x100_S5000x100_1_0_0_1_n_n.contr.Idx) :
    (dot_S5000x100_S100x100_S5000x100_1_0_0_1_n_n.lhsIdx i c 0).val = (i 0).val := by
  unfold DotDims.lhsIdx
  rw [dif_neg (show ¬(0 : Fin S5000x100.rank) ∈ dot_S5000x100_S100x100_S5000x100_1_0_0_1_n_n.lhsBatch by decide), dif_pos (show (0 : Fin S5000x100.rank) ∈ dot_S5000x100_S100x100_S5000x100_1_0_0_1_n_n.lhsNonContracting by decide)]
  rfl

/-- The left operand's column is the contraction coordinate. -/
theorem mm_lhs_1 (i : S5000x100.Idx) (c : dot_S5000x100_S100x100_S5000x100_1_0_0_1_n_n.contr.Idx) :
    (dot_S5000x100_S100x100_S5000x100_1_0_0_1_n_n.lhsIdx i c 1).val = (c ⟨0, by decide⟩).val :=
  dot_S5000x100_S100x100_S5000x100_1_0_0_1_n_n.lhsIdx_val_of_single rfl i c

/-- The right operand's row is the contraction coordinate. -/
theorem mm_rhs_0 (i : S5000x100.Idx) (c : dot_S5000x100_S100x100_S5000x100_1_0_0_1_n_n.contr.Idx) :
    (dot_S5000x100_S100x100_S5000x100_1_0_0_1_n_n.rhsIdx i c 0).val = (c ⟨0, by decide⟩).val :=
  dot_S5000x100_S100x100_S5000x100_1_0_0_1_n_n.rhsIdx_val_of_single rfl i c

/-- The right operand's column is the output's column. -/
theorem mm_rhs_1 (i : S5000x100.Idx) (c : dot_S5000x100_S100x100_S5000x100_1_0_0_1_n_n.contr.Idx) :
    (dot_S5000x100_S100x100_S5000x100_1_0_0_1_n_n.rhsIdx i c 1).val = (i 1).val := by
  unfold DotDims.rhsIdx
  rw [dif_neg (show ¬(1 : Fin S100x100.rank) ∈ dot_S5000x100_S100x100_S5000x100_1_0_0_1_n_n.rhsBatch by decide), dif_pos (show (1 : Fin S100x100.rank) ∈ dot_S5000x100_S100x100_S5000x100_1_0_0_1_n_n.rhsNonContracting by decide)]
  rfl

/-- A matrix product accumulated into zero, read at row `p` and column `q`: the sum over the 100 contraction
    positions of the left operand's row `p` times the right operand's column `q`. -/
theorem mm_apply (l : FVec Ideal S5000x100 .bf16) (r : FVec Ideal S100x100 .bf16) (p : Fin 5000) (q : Fin 100) :
    matmul (F := Ideal) dot_S5000x100_S100x100_S5000x100_1_0_0_1_n_n none l r (constant S5000x100 .f32 0x00000000#32) (ix2 p q)
      = ∑ k : Fin 100, l (ix2 p k) * r (ix2 k q) := by
  simp only [matmul]
  rw [Ideal.matmul_constant_zero_apply, ← Equiv.sum_comp (ValueIdx.contrEquiv1 dot_S5000x100_S100x100_S5000x100_1_0_0_1_n_n 100 rfl rfl).symm]
  refine Finset.sum_congr rfl fun k _ => ?_
  have hk := ValueIdx.contrEquiv1_symm_val dot_S5000x100_S100x100_S5000x100_1_0_0_1_n_n 100 rfl rfl k
  have el : dot_S5000x100_S100x100_S5000x100_1_0_0_1_n_n.lhsIdx (ix2 p q) ((ValueIdx.contrEquiv1 dot_S5000x100_S100x100_S5000x100_1_0_0_1_n_n 100 rfl rfl).symm k) = ix2 p k := funext fun a => Fin.ext (by
    match a with
    | ⟨0, _⟩ => exact mm_lhs_0 _ _
    | ⟨1, _⟩ => exact (mm_lhs_1 _ _).trans hk)
  have er : dot_S5000x100_S100x100_S5000x100_1_0_0_1_n_n.rhsIdx (ix2 p q) ((ValueIdx.contrEquiv1 dot_S5000x100_S100x100_S5000x100_1_0_0_1_n_n 100 rfl rfl).symm k) = ix2 k q := funext fun a => Fin.ext (by
    match a with
    | ⟨0, _⟩ => exact (mm_rhs_0 _ _).trans hk
    | ⟨1, _⟩ => exact mm_rhs_1 _ _)
  rw [el, er]

/-! ## The three payloads -/

/-- The first kernel's stored block: the layer formula on the block's rows, then the maximum with zero. -/
theorem sagePay_eq (v0 v3 : Vec Ideal S5000x100 .f32) (v5 v7 : Vec Ideal S100x100 .f32) (v12 : Vec Ideal S1x100 .f32) :
    k0_pay1 (F := Ideal) v0 v3 v5 v7 v12 = reluLayer 5000 v0 v3 v5 v7 (biasRow v12) := by
  funext j
  obtain ⟨p, q, rfl⟩ : ∃ (p : Fin 5000) (q : Fin 100), j = ix2 p q := ⟨j 0, j 1, eq_ix2 j⟩
  rw [reluLayer_apply]
  unfold k0_pay1 layerAt
  simp only [maximumf_apply, addf_apply, broadcast_apply, shapeCast_self]
  rw [mm_apply, mm_apply, broadcastTo_1b_ab_apply]
  rfl

/-- The second kernel's first head: the plain layer formula on the block's rows. -/
theorem headPay3_eq (v0 v3 : Vec Ideal S5000x100 .f32) (v6 v9 : Vec Ideal S100x100 .f32) (v13 : Vec Ideal S1x100 .f32) :
    k1_pay3 (F := Ideal) v0 v3 v6 v9 v13 = layer 5000 v0 v3 v6 v9 (biasRow v13) := by
  funext j
  obtain ⟨p, q, rfl⟩ : ∃ (p : Fin 5000) (q : Fin 100), j = ix2 p q := ⟨j 0, j 1, eq_ix2 j⟩
  rw [layer_apply]
  unfold k1_pay3 k1_pay1 k1_pay2 layerAt
  simp only [addf_apply, shapeCast_self]
  rw [mm_apply, mm_apply, broadcastTo_1b_ab_apply]
  rfl

/-- The second kernel's second head is the same term at its own weights and bias. -/
theorem headPay4_eq (v0 v3 : Vec Ideal S5000x100 .f32) (v17 v20 : Vec Ideal S100x100 .f32) (v24 : Vec Ideal S1x100 .f32) :
    k1_pay4 (F := Ideal) v0 v3 v17 v20 v24 = layer 5000 v0 v3 v17 v20 (biasRow v24) :=
  (rfl : k1_pay4 (F := Ideal) v0 v3 v17 v20 v24 = k1_pay3 (F := Ideal) v0 v3 v17 v20 v24).trans (headPay3_eq v0 v3 v17 v20 v24)

end Cert.KernelIdeal.Pay

end
-- ==== Proof.KernelBlocks.lean ====
/-
  From row blocks to whole arrays.

  Each of the two kernel calls runs over twenty grid points; point `t` reads rows 5000·t … 5000·t + 4999 of its two
  row-blocked operands and the whole of each weight matrix and bias row, and writes the same rows of its results.
  A row of a layer depends only on the same row of its two row-blocked operands, so what point `t` writes IS rows
  5000·t … of the layer formula applied to the WHOLE operand arrays; row `r` is written by point `r / 5000`, so the
  twenty blocks tile each result array, which therefore ends holding the layer formula of the whole arrays.
  Everything is stated for arbitrary contents `V` of the buffers at the region's entry: the run instantiates it.
-/
import proofs.«165253_j88064009437412_1_alg».proof.Proof.Gen.KernelIdeal.Frame
import proofs.«165253_j88064009437412_1_alg».proof.Proof.KernelPay
import proofs.«165253_j88064009437412_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pay Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## The first call: the layer with the maximum -/

/-- Where the first call's windows sit at grid point `t`: the two row-blocked inputs and the output at block row `t`,
    the weights and the bias at their one block. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- What point `t` of the first call writes back is rows 5000·t … of the layer-with-maximum of the whole arrays. -/
theorem flushed0_eq (c : Dev nD) (t : Fin cfg0.N) :
    (dat0 V c).flushed 5 t = ((cfg0.win 5).blk t).view.read (Elt Ideal)
      (reluLayer 100000 (V c main_v22) (V c main_arg0) (V c main_arg3) (V c main_arg4) (biasRow (V c main_v23))) := by
  show (cfg0.win 5).cut (grid0.coords t) ((dat0 V c).after 5 t) = _
  rw [after0_5]
  unfold out0_5
  rw [View.canon_unit_zero hz]
  simp only [View.ld_unit_zero (S := S5000x100) hz, View.ld_unit_zero (S := S100x100) hz, View.ld_unit_zero (S := S1x100) hz]
  rw [sagePay_eq]
  funext j
  obtain ⟨e00, e01, e10, e11, e20, e21, e30, e31, e40, e41, e50, e51⟩ := idx_facts0 t
  obtain ⟨p, q, rfl⟩ : ∃ (p : Fin 5000) (q : Fin 100), j = ix2 p q := ⟨j 0, j 1, eq_ix2 (n0 := 5000) (n1 := 100) j⟩
  show reluLayer 5000 (iblk0 V c 0 t) (iblk0 V c 1 t) (iblk0 V c 2 t) (iblk0 V c 3 t) (biasRow (iblk0 V c 4 t)) (ix2 p q)
    = reluLayer 100000 (V c main_v22) (V c main_arg0) (V c main_arg3) (V c main_arg4) (biasRow (V c main_v23)) (((cfg0.win 5).blk t).view.emb (ix2 p q))
  have hp : p.val < 5000 := p.isLt
  have ht : t.val < 20 := t.isLt
  have hemb : ((cfg0.win 5).blk t).view.emb (ix2 p q) = ix2 (⟨5000 * t.val + p.val, by omega⟩ : Fin 100000) q := by
    funext a; apply Fin.ext
    match a with
    | ⟨0, _⟩ => show win0_5.index t (0 : Fin 2) * 5000 + 1 * p.val = 5000 * t.val + p.val; omega
    | ⟨1, _⟩ => show win0_5.index t (1 : Fin 2) * 100 + 1 * q.val = q.val; omega
  rw [hemb, reluLayer_apply, reluLayer_apply]
  refine congrArg (max · _) (layerAt_congr_all _ _ _ _ _ _ _ _ _ _ _ _ _ ?_ ?_ ?_ ?_ ?_)
  · intro k
    show V c main_v22 (((cfg0.win 0).blk t).view.emb (ix2 p k)) = V c main_v22 (ix2 _ k)
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 100 + 1 * k.val = k.val; omega
  · intro k
    show V c main_arg0 (((cfg0.win 1).blk t).view.emb (ix2 p k)) = V c main_arg0 (ix2 _ k)
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 100 + 1 * k.val = k.val; omega
  · intro k
    show V c main_arg3 (((cfg0.win 2).blk t).view.emb (ix2 k q)) = V c main_arg3 (ix2 k q)
    refine congrArg _ (funext fun a => Fin.ext ?_)
    match a with
    | ⟨0, _⟩ => show win0_2.index t (0 : Fin 2) * 100 + 1 * k.val = k.val; omega
    | ⟨1, _⟩ => show win0_2.index t (1 : Fin 2) * 100 + 1 * q.val = q.val; omega
  · intro k
    show V c main_arg4 (((cfg0.win 3).blk t).view.emb (ix2 k q)) = V c main_arg4 (ix2 k q)
    refine congrArg _ (funext fun a => Fin.ext ?_)
    match a with
    | ⟨0, _⟩ => show win0_3.index t (0 : Fin 2) * 100 + 1 * k.val = k.val; omega
    | ⟨1, _⟩ => show win0_3.index t (1 : Fin 2) * 100 + 1 * q.val = q.val; omega
  · show V c main_v23 (((cfg0.win 4).blk t).view.emb (ix2 (0 : Fin 1) q)) = V c main_v23 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 100 + 1 * q.val = q.val; omega

/-- An index of the first call's result array lies in point `t`'s block iff each coordinate is in the block's range. -/
theorem mem_blk0 (t : Fin cfg0.N) (i : S100000x100.Idx) :
    i ∈ ((cfg0.win 5).blk t).view.set ↔ ∀ a : Fin 2, win0_5.index t a * S5000x100.size a ≤ (i a).val ∧ (i a).val < win0_5.index t a * S5000x100.size a + S5000x100.size a := by
  show i ∈ ((View.whole main_v24).slice (win0_5.rect t)).set ↔ _
  rw [View.set_slice_whole, Rect.mem_set_unit]
  exact Iff.rfl

theorem cover0 (i : S100000x100.Idx) : ∃ t : Fin cfg0.N, (cfg0.win 5).flush t = true ∧ i ∈ ((cfg0.win 5).blk t).view.set := by
  have hi0 : (i 0).val < 100000 := (i 0).isLt
  have hi1 : (i 1).val < 100 := (i 1).isLt
  have hN : cfg0.N = 20 := N_0
  refine ⟨⟨(i 0).val / 5000, by rw [hN]; omega⟩, flush0_5 _, ?_⟩
  rw [mem_blk0]
  obtain ⟨-, -, -, -, -, -, -, -, -, -, e50, e51⟩ := idx_facts0 ⟨(i 0).val / 5000, by rw [hN]; omega⟩
  intro a
  match a with
  | ⟨0, _⟩ => show win0_5.index _ (0 : Fin 2) * 5000 ≤ (i 0).val ∧ (i 0).val < win0_5.index _ (0 : Fin 2) * 5000 + 5000
              rw [e50]; show (i 0).val / 5000 * 5000 ≤ (i 0).val ∧ (i 0).val < (i 0).val / 5000 * 5000 + 5000; omega
  | ⟨1, _⟩ => show win0_5.index _ (1 : Fin 2) * 100 ≤ (i 1).val ∧ (i 1).val < win0_5.index _ (1 : Fin 2) * 100 + 100
              rw [e51]; omega

/-- THE FIRST LAYER'S ARRAY after its region, whatever the region found in its operands' arrays. -/
theorem feat_array (c : Dev nD) : (dat0 V c).arrAt 5 cfg0.N
    = reluLayer 100000 (V c main_v22) (V c main_arg0) (V c main_arg3) (V c main_arg4) (biasRow (V c main_v23)) :=
  (dat0 V c).arrAt_eq_of_cover 5 _ (fun t _ => flushed0_eq V c t) cover0

/-! ## The second call: two heads from the same two row-blocked operands -/

/-- Where the second call's windows sit at grid point `t`: the two row-blocked inputs and the two outputs at block row
    `t`, the four weight matrices and the two bias rows at their one block. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0
    ∧ win1_9.index t (0 : Fin 2) = t.val
    ∧ win1_9.index t (1 : Fin 2) = 0 :=
  (by decide +kernel : ∀ t : Fin grid1.N, _)

/-- What point `t` writes back to the first head's array is rows 5000·t … of the layer of the whole arrays. -/
theorem flushed1_8_eq (c : Dev nD) (t : Fin cfg1.N) :
    (dat1 V c).flushed 8 t = ((cfg1.win 8).blk t).view.read (Elt Ideal)
      (layer 100000 (V c main_v43) (V c main_v24) (V c main_arg6) (V c main_arg7) (biasRow (V c main_v44))) := by
  show (cfg1.win 8).cut (grid1.coords t) ((dat1 V c).after 8 t) = _
  rw [after1_8]
  unfold out1_8
  rw [View.canon_unit_zero hz]
  simp only [View.ld_unit_zero (S := S5000x100) hz, View.ld_unit_zero (S := S100x100) hz, View.ld_unit_zero (S := S1x100) hz]
  rw [headPay3_eq]
  funext j
  obtain ⟨e00, e01, e10, e11, e20, e21, e30, e31, e40, e41, e50, e51, e60, e61, e70, e71, e80, e81, e90, e91⟩ := idx_facts1 t
  obtain ⟨p, q, rfl⟩ : ∃ (p : Fin 5000) (q : Fin 100), j = ix2 p q := ⟨j 0, j 1, eq_ix2 (n0 := 5000) (n1 := 100) j⟩
  show layer 5000 (iblk1 V c 0 t) (iblk1 V c 1 t) (iblk1 V c 2 t) (iblk1 V c 3 t) (biasRow (iblk1 V c 4 t)) (ix2 p q)
    = layer 100000 (V c main_v43) (V c main_v24) (V c main_arg6) (V c main_arg7) (biasRow (V c main_v44)) (((cfg1.win 8).blk t).view.emb (ix2 p q))
  have hp : p.val < 5000 := p.isLt
  have ht : t.val < 20 := t.isLt
  have hemb : ((cfg1.win 8).blk t).view.emb (ix2 p q) = ix2 (⟨5000 * t.val + p.val, by omega⟩ : Fin 100000) q := by
    funext a; apply Fin.ext
    match a with
    | ⟨0, _⟩ => show win1_8.index t (0 : Fin 2) * 5000 + 1 * p.val = 5000 * t.val + p.val; omega
    | ⟨1, _⟩ => show win1_8.index t (1 : Fin 2) * 100 + 1 * q.val = q.val; omega
  rw [hemb, layer_apply, layer_apply]
  refine (layerAt_congr_all _ _ _ _ _ _ _ _ _ _ _ _ _ ?_ ?_ ?_ ?_ ?_)
  · intro k
    show V c main_v43 (((cfg1.win 0).blk t).view.emb (ix2 p k)) = V c main_v43 (ix2 _ k)
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 100 + 1 * k.val = k.val; omega
  · intro k
    show V c main_v24 (((cfg1.win 1).blk t).view.emb (ix2 p k)) = V c main_v24 (ix2 _ k)
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 100 + 1 * k.val = k.val; omega
  · intro k
    show V c main_arg6 (((cfg1.win 2).blk t).view.emb (ix2 k q)) = V c main_arg6 (ix2 k q)
    refine congrArg _ (funext fun a => Fin.ext ?_)
    match a with
    | ⟨0, _⟩ => show win1_2.index t (0 : Fin 2) * 100 + 1 * k.val = k.val; omega
    | ⟨1, _⟩ => show win1_2.index t (1 : Fin 2) * 100 + 1 * q.val = q.val; omega
  · intro k
    show V c main_arg7 (((cfg1.win 3).blk t).view.emb (ix2 k q)) = V c main_arg7 (ix2 k q)
    refine congrArg _ (funext fun a => Fin.ext ?_)
    match a with
    | ⟨0, _⟩ => show win1_3.index t (0 : Fin 2) * 100 + 1 * k.val = k.val; omega
    | ⟨1, _⟩ => show win1_3.index t (1 : Fin 2) * 100 + 1 * q.val = q.val; omega
  · show V c main_v44 (((cfg1.win 4).blk t).view.emb (ix2 (0 : Fin 1) q)) = V c main_v44 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 100 + 1 * q.val = q.val; omega

/-- The same for the second head, at its own weights and bias. -/
theorem flushed1_9_eq (c : Dev nD) (t : Fin cfg1.N) :
    (dat1 V c).flushed 9 t = ((cfg1.win 9).blk t).view.read (Elt Ideal)
      (layer 100000 (V c main_v43) (V c main_v24) (V c main_arg9) (V c main_arg10) (biasRow (V c main_v45))) := by
  show (cfg1.win 9).cut (grid1.coords t) ((dat1 V c).after 9 t) = _
  rw [after1_9]
  unfold out1_9
  rw [View.canon_unit_zero hz]
  simp only [View.ld_unit_zero (S := S5000x100) hz, View.ld_unit_zero (S := S100x100) hz, View.ld_unit_zero (S := S1x100) hz]
  rw [headPay4_eq]
  funext j
  obtain ⟨e00, e01, e10, e11, e20, e21, e30, e31, e40, e41, e50, e51, e60, e61, e70, e71, e80, e81, e90, e91⟩ := idx_facts1 t
  obtain ⟨p, q, rfl⟩ : ∃ (p : Fin 5000) (q : Fin 100), j = ix2 p q := ⟨j 0, j 1, eq_ix2 (n0 := 5000) (n1 := 100) j⟩
  show layer 5000 (iblk1 V c 0 t) (iblk1 V c 1 t) (iblk1 V c 5 t) (iblk1 V c 6 t) (biasRow (iblk1 V c 7 t)) (ix2 p q)
    = layer 100000 (V c main_v43) (V c main_v24) (V c main_arg9) (V c main_arg10) (biasRow (V c main_v45)) (((cfg1.win 9).blk t).view.emb (ix2 p q))
  have hp : p.val < 5000 := p.isLt
  have ht : t.val < 20 := t.isLt
  have hemb : ((cfg1.win 9).blk t).view.emb (ix2 p q) = ix2 (⟨5000 * t.val + p.val, by omega⟩ : Fin 100000) q := by
    funext a; apply Fin.ext
    match a with
    | ⟨0, _⟩ => show win1_9.index t (0 : Fin 2) * 5000 + 1 * p.val = 5000 * t.val + p.val; omega
    | ⟨1, _⟩ => show win1_9.index t (1 : Fin 2) * 100 + 1 * q.val = q.val; omega
  rw [hemb, layer_apply, layer_apply]
  refine (layerAt_congr_all _ _ _ _ _ _ _ _ _ _ _ _ _ ?_ ?_ ?_ ?_ ?_)
  · intro k
    show V c main_v43 (((cfg1.win 0).blk t).view.emb (ix2 p k)) = V c main_v43 (ix2 _ k)
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 100 + 1 * k.val = k.val; omega
  · intro k
    show V c main_v24 (((cfg1.win 1).blk t).view.emb (ix2 p k)) = V c main_v24 (ix2 _ k)
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 100 + 1 * k.val = k.val; omega
  · intro k
    show V c main_arg9 (((cfg1.win 5).blk t).view.emb (ix2 k q)) = V c main_arg9 (ix2 k q)
    refine congrArg _ (funext fun a => Fin.ext ?_)
    match a with
    | ⟨0, _⟩ => show win1_5.index t (0 : Fin 2) * 100 + 1 * k.val = k.val; omega
    | ⟨1, _⟩ => show win1_5.index t (1 : Fin 2) * 100 + 1 * q.val = q.val; omega
  · intro k
    show V c main_arg10 (((cfg1.win 6).blk t).view.emb (ix2 k q)) = V c main_arg10 (ix2 k q)
    refine congrArg _ (funext fun a => Fin.ext ?_)
    match a with
    | ⟨0, _⟩ => show win1_6.index t (0 : Fin 2) * 100 + 1 * k.val = k.val; omega
    | ⟨1, _⟩ => show win1_6.index t (1 : Fin 2) * 100 + 1 * q.val = q.val; omega
  · show V c main_v45 (((cfg1.win 7).blk t).view.emb (ix2 (0 : Fin 1) q)) = V c main_v45 (ix2 (0 : Fin 1) q)
    refine congrArg _ (funext fun a => Fin.ext ?_)
    match a with
    | ⟨0, _⟩ => show win1_7.index t (0 : Fin 2) * 1 + 1 * 0 = 0; omega
    | ⟨1, _⟩ => show win1_7.index t (1 : Fin 2) * 100 + 1 * q.val = q.val; omega

theorem mem_blk1_8 (t : Fin cfg1.N) (i : S100000x100.Idx) :
    i ∈ ((cfg1.win 8).blk t).view.set ↔ ∀ a : Fin 2, win1_8.index t a * S5000x100.size a ≤ (i a).val ∧ (i a).val < win1_8.index t a * S5000x100.size a + S5000x100.size a := by
  show i ∈ ((View.whole main_v46_0).slice (win1_8.rect t)).set ↔ _
  rw [View.set_slice_whole, Rect.mem_set_unit]
  exact Iff.rfl

theorem cover1_8 (i : S100000x100.Idx) : ∃ t : Fin cfg1.N, (cfg1.win 8).flush t = true ∧ i ∈ ((cfg1.win 8).blk t).view.set := by
  have hi0 : (i 0).val < 100000 := (i 0).isLt
  have hi1 : (i 1).val < 100 := (i 1).isLt
  have hN : cfg1.N = 20 := N_1
  refine ⟨⟨(i 0).val / 5000, by rw [hN]; omega⟩, flush1_8 _, ?_⟩
  rw [mem_blk1_8]
  obtain ⟨-, -, -, -, -, -, -, -, -, -, -, -, -, -, -, -, e80, e81, -, -⟩ := idx_facts1 ⟨(i 0).val / 5000, by rw [hN]; omega⟩
  intro a
  match a with
  | ⟨0, _⟩ => show win1_8.index _ (0 : Fin 2) * 5000 ≤ (i 0).val ∧ (i 0).val < win1_8.index _ (0 : Fin 2) * 5000 + 5000
              rw [e80]; show (i 0).val / 5000 * 5000 ≤ (i 0).val ∧ (i 0).val < (i 0).val / 5000 * 5000 + 5000; omega
  | ⟨1, _⟩ => show win1_8.index _ (1 : Fin 2) * 100 ≤ (i 1).val ∧ (i 1).val < win1_8.index _ (1 : Fin 2) * 100 + 100
              rw [e81]; omega

theorem mem_blk1_9 (t : Fin cfg1.N) (i : S100000x100.Idx) :
    i ∈ ((cfg1.win 9).blk t).view.set ↔ ∀ a : Fin 2, win1_9.index t a * S5000x100.size a ≤ (i a).val ∧ (i a).val < win1_9.index t a * S5000x100.size a + S5000x100.size a := by
  show i ∈ ((View.whole main_v46_1).slice (win1_9.rect t)).set ↔ _
  rw [View.set_slice_whole, Rect.mem_set_unit]
  exact Iff.rfl

theorem cover1_9 (i : S100000x100.Idx) : ∃ t : Fin cfg1.N, (cfg1.win 9).flush t = true ∧ i ∈ ((cfg1.win 9).blk t).view.set := by
  have hi0 : (i 0).val < 100000 := (i 0).isLt
  have hi1 : (i 1).val < 100 := (i 1).isLt
  have hN : cfg1.N = 20 := N_1
  refine ⟨⟨(i 0).val / 5000, by rw [hN]; omega⟩, flush1_9 _, ?_⟩
  rw [mem_blk1_9]
  obtain ⟨-, -, -, -, -, -, -, -, -, -, -, -, -, -, -, -, -, -, e90, e91⟩ := idx_facts1 ⟨(i 0).val / 5000, by rw [hN]; omega⟩
  intro a
  match a with
  | ⟨0, _⟩ => show win1_9.index _ (0 : Fin 2) * 5000 ≤ (i 0).val ∧ (i 0).val < win1_9.index _ (0 : Fin 2) * 5000 + 5000
              rw [e90]; show (i 0).val / 5000 * 5000 ≤ (i 0).val ∧ (i 0).val < (i 0).val / 5000 * 5000 + 5000; omega
  | ⟨1, _⟩ => show win1_9.index _ (1 : Fin 2) * 100 ≤ (i 1).val ∧ (i 1).val < win1_9.index _ (1 : Fin 2) * 100 + 100
              rw [e91]; omega

/-- THE FIRST HEAD'S ARRAY after the second region, whatever the region found in its operands' arrays. -/
theorem head0_array (c : Dev nD) : (dat1 V c).arrAt 8 cfg1.N
    = layer 100000 (V c main_v43) (V c main_v24) (V c main_arg6) (V c main_arg7) (biasRow (V c main_v44)) :=
  (dat1 V c).arrAt_eq_of_cover 8 _ (fun t _ => flushed1_8_eq V c t) cover1_8

/-- THE SECOND HEAD'S ARRAY after the second region. -/
theorem head1_array (c : Dev nD) : (dat1 V c).arrAt 9 cfg1.N
    = layer 100000 (V c main_v43) (V c main_v24) (V c main_arg9) (V c main_arg10) (biasRow (V c main_v45)) :=
  (dat1 V c).arrAt_eq_of_cover 9 _ (fun t _ => flushed1_9_eq V c t) cover1_9

end Cert.KernelIdeal.Blocks

end
-- ==== Proof.KernelWalk.lean ====
/-
  The kernel program's two results as functions of its arguments.

  @main is: host operations (the neighbour means of `x`), the first kernel call (the first layer's features),
  host operations again (the neighbour means of those features, the same chain of operations), the second kernel
  call (the two heads). The buffer contents at the four segment boundaries are a fold from the launch memory; here the
  fold is read at the buffers the results depend on, one boundary at a time, and the pieces are put together.
  The aggregation chain (the edge list's two rows, the index normalisation, the gather, the scatter-add of the gathered
  rows, the degree count by a scatter-add of ones, its maximum with one, the division) is kept as ONE function `agg` of the
  feature array and the edge list and never opened: the reference applies the same function.
-/
import proofs.«165253_j88064009437412_1_alg».proof.Proof.Gen.KernelIdeal.Frame
import proofs.«165253_j88064009437412_1_alg».proof.Proof.KernelBlocks
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.Blocks Cert.KernelIdeal.Pay Cert.Spec

/-- Row 0 of the edge list: the source node of each edge. -/
def srcOf (E : (⟨S2x1600000, .i32⟩ : BufTy).Contents (Elt Ideal)) : (⟨S1600000, .i32⟩ : BufTy).Contents (Elt Ideal) :=
  shapeCast _ (extractStridedSlice S1x1600000 ![0, 0] E slices_S2x1600000_S1x1600000_0_0) shapeCasts_S1x1600000_S1600000

/-- Row 1 of the edge list: the target node of each edge. -/
def dstOf (E : (⟨S2x1600000, .i32⟩ : BufTy).Contents (Elt Ideal)) : (⟨S1600000, .i32⟩ : BufTy).Contents (Elt Ideal) :=
  shapeCast _ (extractStridedSlice S1x1600000 ![1, 0] E slices_S2x1600000_S1x1600000_1_0) shapeCasts_S1x1600000_S1600000

/-- The neighbour means of the rows of `X` along the edges `src → dst`: the rows gathered at the (normalised) sources,
    added up at the targets, and divided by the larger of the target's degree and one. -/
def aggOf (X : (⟨S100000x100, .f32⟩ : BufTy).Contents (Elt Ideal)) (src dst : (⟨S1600000, .i32⟩ : BufTy).Contents (Elt Ideal)) :
    (⟨S100000x100, .f32⟩ : BufTy).Contents (Elt Ideal) :=
  Host.divf
    (Host.scatterAdd scatter_S100000x100_S1600000x1_S1600000x100_1_0_0_1
      (broadcastInDim S100000x100 ![] bcast_S_S100000x100 (constant (F := Ideal) S_ .f32 0x00000000#32))
      (broadcastInDim S1600000x1 ![0] bcast_S1600000_S1600000x1_0 dst)
      (Host.gather gather_S100000x100_S1600000x1_S1600000x100_1_0_n_n_0_1_1100 X
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x100 ![0, 1] bcast_S100000x1_S100000x100_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The aggregation as one function of the features and the edge list. -/
def agg (X : (⟨S100000x100, .f32⟩ : BufTy).Contents (Elt Ideal)) (E : (⟨S2x1600000, .i32⟩ : BufTy).Contents (Elt Ideal)) :
    (⟨S100000x100, .f32⟩ : BufTy).Contents (Elt Ideal) := aggOf X (srcOf E) (dstOf E)

variable (m : (ℓ : Loc nD τ sig) → Buf (Elt Ideal) ℓ) (ρ : Dev nD → PrngReg)

/-! ## The first stretch of host operations, read at the first region's operands -/

theorem V1_v22 (c : Dev nD) : (V1 m ρ c main_v22 : S100000x100.Idx → EReal)
    = agg (m ((c : Thread nD τ).loc main_arg0)) (m ((c : Thread nD τ).loc main_arg1)) := by
  show StableHlo.after hostOps0 (W0 m ρ c) (Proc.devRef .tc main_v22) = _
  after_results_simp
  rfl

theorem V1_arg0 (c : Dev nD) : (V1 m ρ c main_arg0 : S100000x100.Idx → EReal) = (m ((c : Thread nD τ).loc main_arg0)) := by
  show StableHlo.after hostOps0 (W0 m ρ c) (Proc.devRef .tc main_arg0) = _
  after_results_simp <;> rfl

theorem V1_arg3 (c : Dev nD) : (V1 m ρ c main_arg3 : S100x100.Idx → EReal) = (m ((c : Thread nD τ).loc main_arg3)) := by
  show StableHlo.after hostOps0 (W0 m ρ c) (Proc.devRef .tc main_arg3) = _
  after_results_simp <;> rfl

theorem V1_arg4 (c : Dev nD) : (V1 m ρ c main_arg4 : S100x100.Idx → EReal) = (m ((c : Thread nD τ).loc main_arg4)) := by
  show StableHlo.after hostOps0 (W0 m ρ c) (Proc.devRef .tc main_arg4) = _
  after_results_simp <;> rfl

theorem V1_v23 (c : Dev nD) : (V1 m ρ c main_v23 : S1x100.Idx → EReal) = shapeCast _ (m ((c : Thread nD τ).loc main_arg5)) shapeCasts_S100_S1x100 := by
  show StableHlo.after hostOps0 (W0 m ρ c) (Proc.devRef .tc main_v23) = _
  after_results_simp <;> rfl

/-- The first layer's bias row, as the region finds it, is the bias argument. -/
theorem bias_sage (c : Dev nD) : biasRow (V1 m ρ c main_v23) = (m ((c : Thread nD τ).loc main_arg5)) := by
  funext j
  obtain ⟨q, rfl⟩ : ∃ q : Fin 100, j = ix1 q := ⟨j 0, eq_ix1 j⟩
  show (V1 m ρ c main_v23 : S1x100.Idx → EReal) (ix2 (0 : Fin 1) q) = _
  rw [V1_v23]
  exact shapeCast_a_1a_apply _ _ 0 q

/-! ## The first region's result: the first layer's features -/

/-- The features `max(layer(agg x, x), 0)` the first region leaves in its result array. -/
abbrev feat (c : Dev nD) : S100000x100.Idx → EReal :=
  reluLayer 100000 (agg (m ((c : Thread nD τ).loc main_arg0)) (m ((c : Thread nD τ).loc main_arg1))) (m ((c : Thread nD τ).loc main_arg0)) (m ((c : Thread nD τ).loc main_arg3)) (m ((c : Thread nD τ).loc main_arg4)) (m ((c : Thread nD τ).loc main_arg5))

theorem W2_v24 (c : Dev nD) : (W2 m ρ c (Proc.devRef .tc main_v24) : S100000x100.Idx → EReal) = feat m c := by
  refine (W2_arr m ρ c 5).trans ?_
  rw [feat_array (V1 m ρ) c, V1_v22, V1_arg0, V1_arg3, V1_arg4, bias_sage]

/-! ## The second stretch of host operations, read at the second region's operands -/

theorem W2_v1 (c : Dev nD) : (W2 m ρ c (Proc.devRef .tc main_v1) : S1600000.Idx → BitVec 32) = srcOf (m ((c : Thread nD τ).loc main_arg1)) := by
  refine (W2_of_ne m ρ c main_v1 (by decide)).trans ?_
  show StableHlo.after hostOps0 (W0 m ρ c) (Proc.devRef .tc main_v1) = _
  after_results_simp <;> rfl

theorem W2_v3 (c : Dev nD) : (W2 m ρ c (Proc.devRef .tc main_v3) : S1600000.Idx → BitVec 32) = dstOf (m ((c : Thread nD τ).loc main_arg1)) := by
  refine (W2_of_ne m ρ c main_v3 (by decide)).trans ?_
  show StableHlo.after hostOps0 (W0 m ρ c) (Proc.devRef .tc main_v3) = _
  after_results_simp <;> rfl

theorem V3_v43 (c : Dev nD) : (V3 m ρ c main_v43 : S100000x100.Idx → EReal) = agg (feat m c) (m ((c : Thread nD τ).loc main_arg1)) := by
  show StableHlo.after hostOps1 (W2 m ρ c) (Proc.devRef .tc main_v43) = _
  after_results_simp
  rw [W2_v24, W2_v1, W2_v3]
  rfl

theorem V3_v24 (c : Dev nD) : (V3 m ρ c main_v24 : S100000x100.Idx → EReal) = feat m c := by
  show StableHlo.after hostOps1 (W2 m ρ c) (Proc.devRef .tc main_v24) = _
  after_results_simp
  exact W2_v24 m ρ c

theorem V3_arg6 (c : Dev nD) : (V3 m ρ c main_arg6 : S100x100.Idx → EReal) = (m ((c : Thread nD τ).loc main_arg6)) := by
  show StableHlo.after hostOps1 (W2 m ρ c) (Proc.devRef .tc main_arg6) = _
  after_results_simp
  refine (W2_of_ne m ρ c main_arg6 (by decide)).trans ?_
  show StableHlo.after hostOps0 (W0 m ρ c) (Proc.devRef .tc main_arg6) = _
  after_results_simp <;> rfl

theorem V3_arg7 (c : Dev nD) : (V3 m ρ c main_arg7 : S100x100.Idx → EReal) = (m ((c : Thread nD τ).loc main_arg7)) := by
  show StableHlo.after hostOps1 (W2 m ρ c) (Proc.devRef .tc main_arg7) = _
  after_results_simp
  refine (W2_of_ne m ρ c main_arg7 (by decide)).trans ?_
  show StableHlo.after hostOps0 (W0 m ρ c) (Proc.devRef .tc main_arg7) = _
  after_results_simp <;> rfl

theorem V3_arg9 (c : Dev nD) : (V3 m ρ c main_arg9 : S100x100.Idx → EReal) = (m ((c : Thread nD τ).loc main_arg9)) := by
  show StableHlo.after hostOps1 (W2 m ρ c) (Proc.devRef .tc main_arg9) = _
  after_results_simp
  refine (W2_of_ne m ρ c main_arg9 (by decide)).trans ?_
  show StableHlo.after hostOps0 (W0 m ρ c) (Proc.devRef .tc main_arg9) = _
  after_results_simp <;> rfl

theorem V3_arg10 (c : Dev nD) : (V3 m ρ c main_arg10 : S100x100.Idx → EReal) = (m ((c : Thread nD τ).loc main_arg10)) := by
  show StableHlo.after hostOps1 (W2 m ρ c) (Proc.devRef .tc main_arg10) = _
  after_results_simp
  refine (W2_of_ne m ρ c main_arg10 (by decide)).trans ?_
  show StableHlo.after hostOps0 (W0 m ρ c) (Proc.devRef .tc main_arg10) = _
  after_results_simp <;> rfl

theorem V3_v44 (c : Dev nD) : (V3 m ρ c main_v44 : S1x100.Idx → EReal) = shapeCast _ (m ((c : Thread nD τ).loc main_arg8)) shapeCasts_S100_S1x100 := by
  show StableHlo.after hostOps1 (W2 m ρ c) (Proc.devRef .tc main_v44) = _
  after_results_simp
  rw [W2_of_ne m ρ c main_arg8 (by decide)]
  show shapeCast _ (StableHlo.after hostOps0 (W0 m ρ c) (Proc.devRef .tc main_arg8)) _ = _
  after_results_simp <;> rfl

theorem bias_v44 (c : Dev nD) : biasRow (V3 m ρ c main_v44) = (m ((c : Thread nD τ).loc main_arg8)) := by
  funext j
  obtain ⟨q, rfl⟩ : ∃ q : Fin 100, j = ix1 q := ⟨j 0, eq_ix1 j⟩
  show (V3 m ρ c main_v44 : S1x100.Idx → EReal) (ix2 (0 : Fin 1) q) = _
  rw [V3_v44]
  exact shapeCast_a_1a_apply _ _ 0 q

theorem V3_v45 (c : Dev nD) : (V3 m ρ c main_v45 : S1x100.Idx → EReal) = shapeCast _ (m ((c : Thread nD τ).loc main_arg11)) shapeCasts_S100_S1x100 := by
  show StableHlo.after hostOps1 (W2 m ρ c) (Proc.devRef .tc main_v45) = _
  after_results_simp
  rw [W2_of_ne m ρ c main_arg11 (by decide)]
  show shapeCast _ (StableHlo.after hostOps0 (W0 m ρ c) (Proc.devRef .tc main_arg11)) _ = _
  after_results_simp <;> rfl

theorem bias_v45 (c : Dev nD) : biasRow (V3 m ρ c main_v45) = (m ((c : Thread nD τ).loc main_arg11)) := by
  funext j
  obtain ⟨q, rfl⟩ : ∃ q : Fin 100, j = ix1 q := ⟨j 0, eq_ix1 j⟩
  show (V3 m ρ c main_v45 : S1x100.Idx → EReal) (ix2 (0 : Fin 1) q) = _
  rw [V3_v45]
  exact shapeCast_a_1a_apply _ _ 0 q

/-! ## The two results -/

/-- THE FIRST RESULT: the head at the first pair of weights, of the arguments as launched. -/
theorem out0_value (c : Dev nD) : (W4 m ρ c (Proc.devRef .tc main_v46_0) : S100000x100.Idx → EReal)
    = head agg (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 8).trans ?_
  rw [head0_array (V3 m ρ) c, V3_v43, V3_v24, V3_arg6, V3_arg7, bias_v44]
  rfl

/-- THE SECOND RESULT: the head at the second pair of weights. -/
theorem out1_value (c : Dev nD) : (W4 m ρ c (Proc.devRef .tc main_v46_1) : S100000x100.Idx → EReal)
    = head agg (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) := by
  refine (W4_arr m ρ c 9).trans ?_
  rw [head1_array (V3 m ρ) c, V3_v43, V3_v24, V3_arg9, V3_arg10, bias_v45]
  rfl

end Cert.KernelIdeal.Walk

end
-- ==== Proof.RefRead.lean ====
/-
  The reference program, read as mathematics.

  The program computes one graph layer three times: the first on the node features, followed by a maximum with
  zero, and the two output heads on the features the first one produced. Each layer first averages, for every
  node, the rows of its in-neighbours (a gather along the edge sources, a scatter-add into the edge targets and a
  division by the in-degree, the degree raised to at least one), then adds two matrix products and a bias.

  The averaging is written out three times in the program, each time from scratch, but the three copies are the
  same function of (features, edge list): the parts that only depend on the edge list (the target column, the
  wrapped source column, the degree) are rebuilt by the same operations on the same operand. `meanAgg` is that one
  function; the first block of lemmas says each copy is `meanAgg` of its input, which holds by unfolding names only.
  The second block reads the three layers index by index over the extended reals and finds the formula of
  `Cert.Spec`: out[r, q] = Σ_k A[r, k] · Wa[k, q] + Σ_k X[r, k] · Wr[k, q] + b[q].
-/
import proofs.«165253_j88064009437412_1_alg».proof.Proof.Gen.ReferenceIdeal.Read
import proofs.«165253_j88064009437412_1_alg».proof.Proof.Spec

noncomputable section

namespace Cert.ReferenceIdeal.RefRead

open Cert.ReferenceIdeal Cert.ReferenceIdeal.Gen Cert.ReferenceIdeal.Read Cert.Spec Idealize.ShloMosaic Idealize.ShloMosaic.TcCoe Idealize.SL.Sem Idealize.ShloMosaic.StableHlo Idealize.ShloMosaic.ValueIdx

variable {F : FTy → Type} [FloatOps F]

/-- The neighbour mean as one function of the features `X` and the edge list `E`: gather the rows of `X` at the
    (wrapped) edge sources, add them into the rows named by the edge targets starting from zero, and divide row `r`
    by max(in-degree of r, 1). The three pieces that depend on `E` alone are the first copy's own stages. -/
def meanAgg (X : (⟨S100000x100, .f32⟩ : BufTy).Contents (Elt F)) (E : (⟨S2x1600000, .i32⟩ : BufTy).Contents (Elt F)) :
    (⟨S100000x100, .f32⟩ : BufTy).Contents (Elt F) :=
  Host.divf
    (Host.scatterAdd scatter_S100000x100_S1600000x1_S1600000x100_1_0_0_1 (val_main_v15 (F := F)) (val_main_v16 (F := F) E)
      (Host.gather gather_S100000x100_S1600000x1_S1600000x100_1_0_n_n_0_1_1100 X (val_main_v13 (F := F) E)))
    (val_main_v21 (F := F) E)

/-- The first copy of the averaging is `meanAgg` of the node features. -/
theorem agg_x (x0 : (⟨S100000x100, .f32⟩ : BufTy).Contents (Elt F)) (x1 : (⟨S2x1600000, .i32⟩ : BufTy).Contents (Elt F)) :
    val_main_v22 (F := F) x0 x1 = meanAgg x0 x1 := by
  unfold val_main_v22 val_main_v17 val_main_v14 meanAgg
  rfl

/-! The second and third copies rebuild, from the edge list alone, the same four arrays as the first copy: the zero
    array the sums start from, the target column, the wrapped source column and the broadcast degree. Each equation
    below is two spellings of one term. -/

theorem zeros_mu : val_main_v41 (F := F) = val_main_v15 (F := F) := by
  unfold val_main_v41 val_main_v15 val_main_cst_8 val_main_cst_2
  rfl

theorem dst_mu (x1 : (⟨S2x1600000, .i32⟩ : BufTy).Contents (Elt F)) : val_main_v42 (F := F) x1 = val_main_v16 (F := F) x1 := by
  unfold val_main_v42 val_main_v16
  rfl

theorem src_mu (x1 : (⟨S2x1600000, .i32⟩ : BufTy).Contents (Elt F)) : val_main_v39 (F := F) x1 = val_main_v13 (F := F) x1 := by
  unfold val_main_v39 val_main_v13 val_main_v38 val_main_v12 val_main_v37 val_main_v11 val_main_v35 val_main_v9
    val_main_v36 val_main_v10 val_main_v34 val_main_v8 val_main_c_7 val_main_c_1 val_main_c_6 val_main_c
  rfl

theorem deg_mu (x1 : (⟨S2x1600000, .i32⟩ : BufTy).Contents (Elt F)) : val_main_v47 (F := F) x1 = val_main_v21 (F := F) x1 := by
  unfold val_main_v47 val_main_v21 val_main_v46 val_main_v20 val_main_v45 val_main_v19 val_main_v44 val_main_v18
    val_main_v33 val_main_v7 val_main_v32 val_main_v6 val_main_v31 val_main_v5 val_main_v30 val_main_v4
    val_main_cst_9 val_main_cst_3 val_main_cst_5 val_main_cst_0 val_main_cst_4 val_main_cst
  rfl

theorem zeros_var : val_main_v66 (F := F) = val_main_v15 (F := F) := by
  unfold val_main_v66 val_main_v15 val_main_cst_14 val_main_cst_2
  rfl

theorem dst_var (x1 : (⟨S2x1600000, .i32⟩ : BufTy).Contents (Elt F)) : val_main_v67 (F := F) x1 = val_main_v16 (F := F) x1 := by
  unfold val_main_v67 val_main_v16
  rfl

theorem src_var (x1 : (⟨S2x1600000, .i32⟩ : BufTy).Contents (Elt F)) : val_main_v64 (F := F) x1 = val_main_v13 (F := F) x1 := by
  unfold val_main_v64 val_main_v13 val_main_v63 val_main_v12 val_main_v62 val_main_v11 val_main_v60 val_main_v9
    val_main_v61 val_main_v10 val_main_v59 val_main_v8 val_main_c_13 val_main_c_1 val_main_c_12 val_main_c
  rfl

theorem deg_var (x1 : (⟨S2x1600000, .i32⟩ : BufTy).Contents (Elt F)) : val_main_v72 (F := F) x1 = val_main_v21 (F := F) x1 := by
  unfold val_main_v72 val_main_v21 val_main_v71 val_main_v20 val_main_v70 val_main_v19 val_main_v69 val_main_v18
    val_main_v58 val_main_v7 val_main_v57 val_main_v6 val_main_v56 val_main_v5 val_main_v55 val_main_v4
    val_main_cst_15 val_main_cst_3 val_main_cst_11 val_main_cst_0 val_main_cst_10 val_main_cst
  rfl

/-- The second copy of the averaging is `meanAgg` of the first layer's features. -/
theorem agg_feat_mu (x0 : (⟨S100000x100, .f32⟩ : BufTy).Contents (Elt F)) (x1 : (⟨S2x1600000, .i32⟩ : BufTy).Contents (Elt F))
    (x3 x4 : (⟨S100x100, .f32⟩ : BufTy).Contents (Elt F)) (x5 : (⟨S100, .f32⟩ : BufTy).Contents (Elt F)) :
    val_main_v48 (F := F) x0 x1 x3 x4 x5 = meanAgg (val_main_v29 (F := F) x0 x1 x3 x4 x5) x1 := by
  unfold val_main_v48 val_main_v43 val_main_v40 meanAgg
  rw [zeros_mu, dst_mu, src_mu, deg_mu]

/-- The third copy of the averaging is `meanAgg` of the first layer's features too. -/
theorem agg_feat_var (x0 : (⟨S100000x100, .f32⟩ : BufTy).Contents (Elt F)) (x1 : (⟨S2x1600000, .i32⟩ : BufTy).Contents (Elt F))
    (x3 x4 : (⟨S100x100, .f32⟩ : BufTy).Contents (Elt F)) (x5 : (⟨S100, .f32⟩ : BufTy).Contents (Elt F)) :
    val_main_v73 (F := F) x0 x1 x3 x4 x5 = meanAgg (val_main_v29 (F := F) x0 x1 x3 x4 x5) x1 := by
  unfold val_main_v73 val_main_v68 val_main_v65 meanAgg
  rw [zeros_var, dst_var, src_var, deg_var]

/-! ### The three layers, index by index

    At row `r` and column `q` a matrix product reads row `r` of its left factor and column `q` of its right factor,
    and the bias, broadcast first to one row and then to every row, reads entry `q`. The program's index functions
    say this with coordinates rebuilt from their values; the equations below put them back as `(r, k)`, `(k, q)`, `q`. -/

/-- Two indices into a two-axis (or one-axis) array are equal when their coordinates are. -/
local macro "coords" : tactic =>
  `(tactic| (funext a; apply Fin.ext; first | (match a with | ⟨0, _⟩ => rfl | ⟨1, _⟩ => rfl) | (match a with | ⟨0, _⟩ => rfl)))

/-- The first layer's features are the layer of (neighbour mean of x, x) followed by the maximum with zero. -/
theorem feat_eq (x0 : (⟨S100000x100, .f32⟩ : BufTy).Contents (Elt Ideal)) (x1 : (⟨S2x1600000, .i32⟩ : BufTy).Contents (Elt Ideal))
    (x3 x4 : (⟨S100x100, .f32⟩ : BufTy).Contents (Elt Ideal)) (x5 : (⟨S100, .f32⟩ : BufTy).Contents (Elt Ideal)) :
    val_main_v29 (F := Ideal) x0 x1 x3 x4 x5 = reluLayer 100000 (val_main_v22 (F := Ideal) x0 x1) x0 x3 x4 x5 := by
  funext i
  obtain ⟨r, q, rfl⟩ : ∃ (r : Fin 100000) (q : Fin 100), i = ix2 r q := ⟨i 0, i 1, eq_ix2 i⟩
  rw [val_main_v29_apply, val_main_v28_apply, val_main_v25_apply, val_main_v23_apply, val_main_v24_apply,
    val_main_v27_apply, val_main_v26_apply, val_main_call0_v0_apply, val_main_call0_cst_apply, reluLayer_apply]
  have l1 : ∀ k : Fin 100, lidx_main_v23 (ix2 r q) k = ix2 r k := fun k => by coords
  have r1 : ∀ k : Fin 100, ridx_main_v23 (ix2 r q) k = ix2 k q := fun k => by coords
  have l2 : ∀ k : Fin 100, lidx_main_v24 (ix2 r q) k = ix2 r k := fun k => by coords
  have r2 : ∀ k : Fin 100, ridx_main_v24 (ix2 r q) k = ix2 k q := fun k => by coords
  have b1 : idx_main_v26 (idx_main_v27 (ix2 r q)) = ix1 q := by coords
  simp only [l1, r1, l2, r2, b1]
  rfl

/-- The first head is the plain layer of (neighbour mean of the features, the features) at its own weights. -/
theorem mu_eq (x0 : (⟨S100000x100, .f32⟩ : BufTy).Contents (Elt Ideal)) (x1 : (⟨S2x1600000, .i32⟩ : BufTy).Contents (Elt Ideal))
    (x3 x4 : (⟨S100x100, .f32⟩ : BufTy).Contents (Elt Ideal)) (x5 : (⟨S100, .f32⟩ : BufTy).Contents (Elt Ideal))
    (x6 x7 : (⟨S100x100, .f32⟩ : BufTy).Contents (Elt Ideal)) (x8 : (⟨S100, .f32⟩ : BufTy).Contents (Elt Ideal)) :
    val_main_v54 (F := Ideal) x0 x1 x3 x4 x5 x6 x7 x8
      = layer 100000 (val_main_v48 (F := Ideal) x0 x1 x3 x4 x5) (val_main_v29 (F := Ideal) x0 x1 x3 x4 x5) x6 x7 x8 := by
  funext i
  obtain ⟨r, q, rfl⟩ : ∃ (r : Fin 100000) (q : Fin 100), i = ix2 r q := ⟨i 0, i 1, eq_ix2 i⟩
  rw [val_main_v54_apply, val_main_v51_apply, val_main_v49_apply, val_main_v50_apply,
    val_main_v53_apply, val_main_v52_apply, layer_apply]
  have l1 : ∀ k : Fin 100, lidx_main_v49 (ix2 r q) k = ix2 r k := fun k => by coords
  have r1 : ∀ k : Fin 100, ridx_main_v49 (ix2 r q) k = ix2 k q := fun k => by coords
  have l2 : ∀ k : Fin 100, lidx_main_v50 (ix2 r q) k = ix2 r k := fun k => by coords
  have r2 : ∀ k : Fin 100, ridx_main_v50 (ix2 r q) k = ix2 k q := fun k => by coords
  have b1 : idx_main_v52 (idx_main_v53 (ix2 r q)) = ix1 q := by coords
  simp only [l1, r1, l2, r2, b1]
  rfl

/-- The second head is the same plain layer at the second head's weights. -/
theorem var_eq (x0 : (⟨S100000x100, .f32⟩ : BufTy).Contents (Elt Ideal)) (x1 : (⟨S2x1600000, .i32⟩ : BufTy).Contents (Elt Ideal))
    (x3 x4 : (⟨S100x100, .f32⟩ : BufTy).Contents (Elt Ideal)) (x5 : (⟨S100, .f32⟩ : BufTy).Contents (Elt Ideal))
    (x9 x10 : (⟨S100x100, .f32⟩ : BufTy).Contents (Elt Ideal)) (x11 : (⟨S100, .f32⟩ : BufTy).Contents (Elt Ideal)) :
    val_main_v79 (F := Ideal) x0 x1 x3 x4 x5 x9 x10 x11
      = layer 100000 (val_main_v73 (F := Ideal) x0 x1 x3 x4 x5) (val_main_v29 (F := Ideal) x0 x1 x3 x4 x5) x9 x10 x11 := by
  funext i
  obtain ⟨r, q, rfl⟩ : ∃ (r : Fin 100000) (q : Fin 100), i = ix2 r q := ⟨i 0, i 1, eq_ix2 i⟩
  rw [val_main_v79_apply, val_main_v76_apply, val_main_v74_apply, val_main_v75_apply,
    val_main_v78_apply, val_main_v77_apply, layer_apply]
  have l1 : ∀ k : Fin 100, lidx_main_v74 (ix2 r q) k = ix2 r k := fun k => by coords
  have r1 : ∀ k : Fin 100, ridx_main_v74 (ix2 r q) k = ix2 k q := fun k => by coords
  have l2 : ∀ k : Fin 100, lidx_main_v75 (ix2 r q) k = ix2 r k := fun k => by coords
  have r2 : ∀ k : Fin 100, ridx_main_v75 (ix2 r q) k = ix2 k q := fun k => by coords
  have b1 : idx_main_v77 (idx_main_v78 (ix2 r q)) = ix1 q := by coords
  simp only [l1, r1, l2, r2, b1]
  rfl

/-! ### The two results

    Each result of the run is its last stage; the stage is a plain layer; its two inputs are the neighbour mean of
    the features and the features; the features are the first layer with the maximum; and the first layer's first
    input is the neighbour mean of the node features. Put together, a result is `Cert.Spec.head` of the arguments. -/

theorem res0_eq (m : (ℓ : Loc nD τ sig) → Buf (Elt Ideal) ℓ) (c : Dev nD) :
    Cert.ReferenceIdeal.Value.res_main_v54 (F := Ideal) m c
      = head (EI := (⟨S2x1600000, .i32⟩ : BufTy).Contents (Elt Ideal)) (meanAgg (F := Ideal)) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [val_main_v54_eq, mu_eq, agg_feat_mu, feat_eq, agg_x]
  rfl

theorem res1_eq (m : (ℓ : Loc nD τ sig) → Buf (Elt Ideal) ℓ) (c : Dev nD) :
    Cert.ReferenceIdeal.Value.res_main_v79 (F := Ideal) m c
      = head (EI := (⟨S2x1600000, .i32⟩ : BufTy).Contents (Elt Ideal)) (meanAgg (F := Ideal)) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg9)) (m ((c.tc : Thread nD τ).loc main_arg10)) (m ((c.tc : Thread nD τ).loc main_arg11)) := by
  rw [val_main_v79_eq, var_eq, agg_feat_var, feat_eq, agg_x]
  rfl

end Cert.ReferenceIdeal.RefRead

end
-- ==== Proof.lean ====
/-
  The certificate: a two-layer graph encoder (mean aggregation along the edges, a layer with a maximum against zero,
  then two linear heads sharing one aggregation) as two row-blocked kernel calls, against the plain formulation.

  Over the extended reals both programs compute, for each head,
      head = layer(agg feat, feat; head weights),   feat = max(layer(agg x, x; first weights), 0),
      layer(A, X; Wa, Wr, b)[r, q] = (Σ_k A[r, k] · Wa[k, q]) + (Σ_k X[r, k] · Wr[k, q]) + b[q],
  with `agg` the neighbour-mean aggregation, the same chain of host operations in both programs and never opened.
  The kernel's casts to a narrower format are the identity on extended reals, a matrix product into a zero
  accumulator is the plain sum, and a block of 5000 rows of a layer only reads the same rows of its operands, so the
  twenty blocks of each call tile the layer of the whole arrays. The sums are the same sums in the same association
  on both sides: no algebraic law is needed, and the finiteness of the inputs is never used.
  The reference computes the aggregation of the features twice (once per head); both copies are the one function `agg`.
-/
import proofs.«165253_j88064009437412_1_alg».proof.Defs
import proofs.«165253_j88064009437412_1_alg».proof.Proof.Gen.Kernel
import proofs.«165253_j88064009437412_1_alg».proof.Proof.Gen.Kernel.Frame
import proofs.«165253_j88064009437412_1_alg».proof.Proof.Gen.KernelIdeal
import proofs.«165253_j88064009437412_1_alg».proof.Proof.Gen.KernelIdeal.Frame
import proofs.«165253_j88064009437412_1_alg».proof.Proof.Gen.ReferenceIdeal
import proofs.«165253_j88064009437412_1_alg».proof.Proof.Gen.ReferenceIdeal.Run
import proofs.«165253_j88064009437412_1_alg».proof.Proof.Gen.Pre_finite_inputs
import proofs.«165253_j88064009437412_1_alg».proof.Proof.KernelRun
import proofs.«165253_j88064009437412_1_alg».proof.Proof.KernelWalk
import proofs.«165253_j88064009437412_1_alg».proof.Proof.RefRead
import Idealize.ShloMosaic.Adequacy
import Idealize.ShloMosaic.Init

noncomputable section

namespace Cert.Proof

open Idealize.ShloMosaic Idealize.ShloMosaic.TcCoe Idealize.SL.Sem Cert.Spec

/-- The aggregation chain is one function: the reference's and the kernel program's spell the same operations
    (each program names its own copy of the shapes and of the gather's and the scatters' dimension numbers). -/
theorem agg_eq : Cert.ReferenceIdeal.RefRead.meanAgg (F := Ideal) = Cert.KernelIdeal.Walk.agg := by
  funext X E
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing: the idealized kernel is the kernel's own text read over the extended reals. -/
theorem preserves : Cert.preserves_Kernel_KernelIdeal := trivial

/-- Both programs end with each result at the same head formula of the (agreeing) arguments. -/
theorem algebraic : Cert.algebraic_KernelIdeal_ReferenceIdeal := by
  intro m ρ m' ρ' _ hagree
  refine ⟨fun c => head Cert.KernelIdeal.Walk.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => head Cert.KernelIdeal.Walk.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Named.run_named (F := Ideal) m ρ)
    obtain ⟨h0, h1, hrest⟩ := h c
    exact ⟨h0.trans (Cert.KernelIdeal.Walk.out0_value m ρ c), h1.trans (Cert.KernelIdeal.Walk.out1_value m ρ c), hrest⟩
  · refine (θ_run Cert.ReferenceIdeal.defs _ _).mono (fun r h c => ?_) (Cert.ReferenceIdeal.Value.run (F := Ideal) m' ρ')
    obtain ⟨h0, h1, hrest⟩ := h c
    obtain ⟨e0, e1, e2, e3, e4, e5, e6, e7, e8, e9, e10, e11⟩ := hagree c
    refine ⟨h0.trans ?_, h1.trans ?_, hrest⟩
    · rw [Cert.ReferenceIdeal.RefRead.res0_eq, agg_eq, e0, e1, e3, e4, e5, e6, e7, e8]
    · rw [Cert.ReferenceIdeal.RefRead.res1_eq, agg_eq, e0, e1, e3, e4, e5, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
